-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S16384x4096 : Shape := ⟨2, ![16384, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S16384x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.Spec.lean ====
/-
  The specification of a DIAGONAL LINEAR MAP. Given an array `x` of 16384 rows and 4096 columns and two
  vectors `w` (weights) and `b` (biases) of length 4096, the result at row `r` and column `k` is

      x r k * w k + b k :

  column `k` of `x` scaled by its own weight and then shifted by its own bias (multiplying by a diagonal
  matrix and adding a row vector). The expression is stated over the extended reals. Both programs form
  exactly this expression at every entry — one product, then one sum, the operands in this order — so no
  law of arithmetic is needed to join them, and nothing has to be known about the entries (an infinite
  entry gives the same extended real on both sides).
-/
import Idealize.ShloMosaic.PureOps.Ideal
import Idealize.ShloMosaic.Lib.ValueIdx

noncomputable section

namespace Cert.DiagLinear

open Idealize.ShloMosaic Idealize.ShloMosaic.ValueIdx

/-- The shape of the array: 16384 rows of 4096 columns. -/
abbrev Rows : Shape := ⟨2, ![16384, 4096]⟩
/-- The shape of a weight or bias vector: one entry per column. -/
abbrev Cols : Shape := ⟨1, ![4096]⟩
/-- The same vector laid out as a single row of 4096 columns. -/
abbrev Row1 : Shape := ⟨2, ![1, 4096]⟩

/-- The entry of a length-4096 vector that belongs to column `k`. -/
abbrev col (k : Fin 4096) : Cols.Idx := ix1 k

/-- The diagonal linear map, entry by entry: at row `i 0` and column `i 1`, the entry of `x` times the
    column's weight, plus the column's bias. -/
def G (x : Rows.Idx → EReal) (w b : Cols.Idx → EReal) : Rows.Idx → EReal :=
  fun i => x i * w (col (i 1)) + b (col (i 1))

/-- The map at an entry given by its row and column. -/
theorem G_apply (x : Rows.Idx → EReal) (w b : Cols.Idx → EReal) (r : Fin 16384) (k : Fin 4096) :
    G x w b (ix2 r k) = x (ix2 r k) * w (col k) + b (col k) := rfl

end Cert.DiagLinear

end
-- ==== Proof.KernelValue.lean ====
/-
  The kernel computes the diagonal linear map, one block of 512 rows at a time.

  The array of 16384 rows is cut into 32 blocks of 512 full rows; block `t` holds rows `512 t` to
  `512 t + 511`. The weight and bias vectors are first laid out as single rows of 4096 entries (same
  entries, same order), and every block is handed that whole row. For each block the body multiplies
  every row of the block, entry by entry, by the weight row and adds the bias row; the product is
  written back to the same rows of the result. So entry (row `512 t + p`, column `q`) of the result is
  `x (512 t + p) q * w q + b q`: the specification read at that entry. Since the 32 blocks together
  contain every row, the whole result array is the specification.
-/
import proofs.«425107_j7653631722083_3_alg».proof.Proof.Gen.KernelIdeal.Value
import proofs.«425107_j7653631722083_3_alg».proof.Proof.Spec
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.DiagValue

open Cert.KernelIdeal Cert.KernelIdeal.Gen Cert.KernelIdeal.Value Cert.DiagLinear

variable (m : (ℓ : Loc nD τ sig) → Buf (Elt Ideal) ℓ) (ρ : Dev nD → PrngReg)

/-- Offsets written as the pair (0, 0) are the zero offsets. -/
theorem zero_offsets : (![0, 0] : Fin 2 → Nat) = fun _ => 0 := funext fun a => by fin_cases a <;> rfl

/-! ## One block -/

/-- What the body leaves for one block, as a formula: given the block `P0` of the array and the weight
    and bias rows `P1`, `P2`, the entry at `y` is the block's entry there times the weight in `y`'s
    column, plus the bias in that column. -/
theorem block_at (P0 : Vec Ideal S512x4096 .f32) (P1 P2 : Vec Ideal S1x4096 .f32) (y : S512x4096.Idx) :
    out0_3 P0 P1 P2 y = P0 y * P1 (ix2 0 (y 1)) + P2 (ix2 0 (y 1)) := by
  unfold out0_3
  rw [canon3_eq]
  simp only [View.ld_unit_zero (S := S512x4096) zero_offsets, View.ld_unit_zero (S := S1x4096) zero_offsets]
  have e0 : ix3_0 y = y := by
    funext a
    match a with
    | ⟨0, _⟩ => rfl
    | ⟨1, _⟩ => rfl
  have e1 : ix3_1 y = ix2 0 (y 1) := by
    funext a
    match a with
    | ⟨0, _⟩ => rfl
    | ⟨1, _⟩ => rfl
  have e2 : ix3_2 y = ix2 0 (y 1) := by
    funext a
    match a with
    | ⟨0, _⟩ => rfl
    | ⟨1, _⟩ => rfl
  simp only [E3, e0, e1, e2]
  rfl

/-! ## The weight and bias rows -/

/-- When the blocks are processed, the weight row is the weight vector laid out as one row. -/
theorem weight_row (c : Dev nD) :
    (V m c main_call0_v0 : S1x4096.Idx → EReal)
      = shapeCast S1x4096 (m ((c : Thread nD τ).loc main_arg1) : S4096.Idx → EReal) shapeCasts_S4096_S1x4096 := by
  dsimp only [V, hostOps0]
  after_results
  rfl

/-- And the bias row is the bias vector laid out as one row. -/
theorem bias_row (c : Dev nD) :
    (V m c main_call0_v1 : S1x4096.Idx → EReal)
      = shapeCast S1x4096 (m ((c : Thread nD τ).loc main_arg2) : S4096.Idx → EReal) shapeCasts_S4096_S1x4096 := by
  dsimp only [V, hostOps0]
  after_results
  rfl

/-- The weight row's entry in column `q` is the weight vector's entry for that column: laying a vector
    out as one row keeps the entries in order. -/
theorem weight_row_apply (c : Dev nD) (q : Fin 4096) :
    (V m c main_call0_v0 : S1x4096.Idx → EReal) (ix2 0 q)
      = (m ((c : Thread nD τ).loc main_arg1) : S4096.Idx → EReal) (col q) := by
  rw [weight_row]
  refine shapeCast_apply _ _ (ix2 0 q) (col q) ?_
  rw [Shape.rowMajor_val_one, Shape.rowMajor_val_two]
  show q.val = 0 * 4096 + q.val
  omega

/-- The same for the bias row. -/
theorem bias_row_apply (c : Dev nD) (q : Fin 4096) :
    (V m c main_call0_v1 : S1x4096.Idx → EReal) (ix2 0 q)
      = (m ((c : Thread nD τ).loc main_arg2) : S4096.Idx → EReal) (col q) := by
  rw [bias_row]
  refine shapeCast_apply _ _ (ix2 0 q) (col q) ?_
  rw [Shape.rowMajor_val_one, Shape.rowMajor_val_two]
  show q.val = 0 * 4096 + q.val
  omega

/-! ## Which rows each block holds -/

/-- At grid point `t` the array's block and the result's block are both block `t` of the rows (and the only
    block of the columns); the weight and bias rows are always their one block. Decided over the 32 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The whole array -/

/-- The array the result should end at: the diagonal linear map of the three arguments as launched. -/
abbrev result (c : Dev nD) : Buf (Elt Ideal) ((c : Thread nD τ).loc main_v0) :=
  G (m ((c : Thread nD τ).loc main_arg0)) (m ((c : Thread nD τ).loc main_arg1)) (m ((c : Thread nD τ).loc main_arg2))

/-- What grid point `t` writes back is rows `512 t … 512 t + 511` of the diagonal linear map: the block of
    the array it was handed is those rows of the array, the weight and bias rows are the two vectors, and
    the body's formula (`block_at`) is the specification's at each of those entries. -/
theorem flushed_eq (c : Dev nD) (t : Fin cfg0.N) :
    (dats m 0 c).flushed 3 t = ((cfg0.win 3).blk t).view.read (Elt Ideal) (result m c) := by
  rw [Value.flushed3]
  obtain ⟨a0, a1, b0, b1, c0, c1, d0, d1⟩ := block_indices t
  funext j
  have hj0 : (j 0).val < 512 := (j 0).isLt
  have hj1 : (j 1).val < 4096 := (j 1).isLt
  show out0_3 (iblk m c 0 t) (iblk m c 1 t) (iblk m c 2 t) j = result m c (((cfg0.win 3).blk t).view.emb j)
  refine (block_at (iblk m c 0 t) (iblk m c 1 t) (iblk m c 2 t) j).trans ?_
  -- the entry's column in the whole array is its column in the block
  have hcol : (((cfg0.win 3).blk t).view.emb j) 1 = j 1 := by
    apply Fin.ext
    show win0_3.index t (1 : Fin 2) * 4096 + 1 * (j 1).val = (j 1).val
    omega
  -- the block of the array, read at `j`, is the array at the entry's place in the whole
  have hx : (iblk m c 0 t : Vec Ideal S512x4096 .f32) j
      = (m ((c : Thread nD τ).loc main_arg0) : S16384x4096.Idx → EReal) (((cfg0.win 3).blk t).view.emb j) := by
    show V m c main_arg0 (((cfg0.win 0).blk t).view.emb j) = _
    rw [V_main_arg0]
    refine congrArg _ ?_
    funext a
    apply Fin.ext
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 4096 + 1 * (j 1).val = win0_3.index t (1 : Fin 2) * 4096 + 1 * (j 1).val
      omega
  -- the weight row, read in `j`'s column, is the weight of that column
  have hw : (iblk m c 1 t : Vec Ideal S1x4096 .f32) (ix2 0 (j 1))
      = (m ((c : Thread nD τ).loc main_arg1) : S4096.Idx → EReal) (col (j 1)) := by
    show V m c main_call0_v0 (((cfg0.win 1).blk t).view.emb (ix2 0 (j 1))) = _
    have e : ((cfg0.win 1).blk t).view.emb (ix2 0 (j 1)) = ix2 0 (j 1) := by
      funext a
      apply Fin.ext
      match a with
      | ⟨0, _⟩ =>
        show win0_1.index t (0 : Fin 2) * 1 + 1 * 0 = 0
        omega
      | ⟨1, _⟩ =>
        show win0_1.index t (1 : Fin 2) * 4096 + 1 * (j 1).val = (j 1).val
        omega
    rw [e]
    exact weight_row_apply m c (j 1)
  -- and the bias row likewise
  have hb : (iblk m c 2 t : Vec Ideal S1x4096 .f32) (ix2 0 (j 1))
      = (m ((c : Thread nD τ).loc main_arg2) : S4096.Idx → EReal) (col (j 1)) := by
    show V m c main_call0_v1 (((cfg0.win 2).blk t).view.emb (ix2 0 (j 1))) = _
    have e : ((cfg0.win 2).blk t).view.emb (ix2 0 (j 1)) = ix2 0 (j 1) := by
      funext a
      apply Fin.ext
      match a with
      | ⟨0, _⟩ =>
        show win0_2.index t (0 : Fin 2) * 1 + 1 * 0 = 0
        omega
      | ⟨1, _⟩ =>
        show win0_2.index t (1 : Fin 2) * 4096 + 1 * (j 1).val = (j 1).val
        omega
    rw [e]
    exact bias_row_apply m c (j 1)
  rw [hx, hw, hb]
  show _ = G _ _ _ (((cfg0.win 3).blk t).view.emb j)
  unfold G
  rw [hcol]

/-- An entry of the array is in point `t`'s block exactly when each of its coordinates is in the block's range. -/
theorem mem_block (t : Fin cfg0.N) (i : S16384x4096.Idx) :
    i ∈ ((cfg0.win 3).blk t).view.set
      ↔ ∀ a : Fin 2, win0_3.index t a * S512x4096.size a ≤ (i a).val
          ∧ (i a).val < win0_3.index t a * S512x4096.size a + S512x4096.size a := by
  show i ∈ ((View.whole main_v0).slice (win0_3.rect t)).set ↔ _
  rw [View.set_slice_whole, Rect.mem_set_unit]
  exact Iff.rfl

/-- Every entry of the array is written back by some grid point: row `r` lies in block `r / 512`, and each
    block spans all the columns. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : grid0.N = 32 := N_0
  obtain ⟨t, ht⟩ : ∃ t : Fin cfg0.N, t.val = (i 0).val / 512 :=
    ⟨⟨(i 0).val / 512, by show (i 0).val / 512 < grid0.N; omega⟩, rfl⟩
  obtain ⟨-, -, -, -, -, -, d0, d1⟩ := block_indices t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- So the result array ends holding the diagonal linear map of the arguments. -/
theorem final (c : Dev nD) : (dats m 0 c).arrAt 3 cfg0.N = result m c :=
  (dats m 0 c).arrAt_eq_of_cover 3 (result m c) (fun t _ => flushed_eq m c t) covered

/-- The kernel's run: it terminates without a fault, the result array is the diagonal linear map of the
    arguments as launched, and the three arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.DiagValue

end
-- ==== Proof.RefValue.lean ====
/-
  The reference computes the diagonal linear map. Its program stretches the weight vector to a single
  row, repeats that row down all 16384 rows, multiplies the array by it entry by entry, does the same
  stretching and repeating with the bias vector, and adds. Read at one entry — row `i 0`, column `i 1` —
  the repeated weight row gives back the weight vector's entry for column `i 1` (the row index is
  forgotten, the column index kept), and likewise for the bias; so the entry is
  `x i * w (i 1) + b (i 1)`, which is the specification, with nothing to rearrange.
-/
import proofs.«425107_j7653631722083_3_alg».proof.Proof.Gen.ReferenceIdeal.Read
import proofs.«425107_j7653631722083_3_alg».proof.Proof.Spec
import Idealize.ShloMosaic.Lib.ValueIdx

noncomputable section

namespace Cert.ReferenceIdeal.DiagValue

open Cert.ReferenceIdeal Cert.ReferenceIdeal.Gen Cert.ReferenceIdeal.Read Cert.DiagLinear
open Idealize.ShloMosaic Idealize.ShloMosaic.ValueIdx

/-- Stretching the weight vector to one row and repeating the row: at array entry `i` the vector is read
    at the entry's column. -/
theorem weight_col (i : S16384x4096.Idx) : idx_main_v0 (idx_main_v1 i) = col (i 1) := by
  funext a
  match a with
  | ⟨0, _⟩ => rfl

/-- The same for the bias vector. -/
theorem bias_col (i : S16384x4096.Idx) : idx_main_v3 (idx_main_v4 i) = col (i 1) := by
  funext a
  match a with
  | ⟨0, _⟩ => rfl

/-- The reference's result, as a function of its three arguments, is the diagonal linear map. -/
theorem stage_eq (x : FVec Ideal S16384x4096 .f32) (w b : FVec Ideal S4096 .f32) :
    val_main_v5 (F := Ideal) x w b = G x w b := by
  funext i
  rw [val_main_v5_apply, val_main_v2_apply, val_main_v1_apply, val_main_v0_apply, val_main_v4_apply,
    val_main_v3_apply, weight_col, bias_col]
  rfl

end Cert.ReferenceIdeal.DiagValue

end
-- ==== Proof.lean ====
/-
  A diagonal linear map computed two ways gives one result.

  The map sends an array `x` of 16384 rows and 4096 columns, a weight vector `w` and a bias vector `b`
  of length 4096 to the array with entry `x r k * w k + b k` at row `r`, column `k`. The kernel
  computes it 512 rows at a time, multiplying each block of rows by the weights laid out as one row
  and adding the biases laid out as one row; the reference repeats the weights and the biases down
  all the rows and multiplies and adds whole arrays. Entry by entry both form the same product and
  then the same sum of the same three numbers, so over the extended reals the two results are equal
  as they stand: no law of arithmetic is used, and the inputs' finiteness is not needed.

  Each of the three programs also runs to the end without a fault and leaves its arguments unchanged,
  and the kernel's reading in exact arithmetic is the kernel's own text taken over the extended reals
  (no operation of it was rewritten), so there is nothing further to show about how the one reading
  was obtained from the other.
-/
import proofs.«425107_j7653631722083_3_alg».proof.Defs
import proofs.«425107_j7653631722083_3_alg».proof.Proof.Gen.Kernel
import proofs.«425107_j7653631722083_3_alg».proof.Proof.Gen.Kernel.Skeleton
import proofs.«425107_j7653631722083_3_alg».proof.Proof.Gen.Kernel.Launch
import proofs.«425107_j7653631722083_3_alg».proof.Proof.Gen.Kernel.Points
import proofs.«425107_j7653631722083_3_alg».proof.Proof.Gen.Kernel.Frame
import proofs.«425107_j7653631722083_3_alg».proof.Proof.Gen.KernelIdeal
import proofs.«425107_j7653631722083_3_alg».proof.Proof.Gen.KernelIdeal.Skeleton
import proofs.«425107_j7653631722083_3_alg».proof.Proof.Gen.KernelIdeal.Launch
import proofs.«425107_j7653631722083_3_alg».proof.Proof.Gen.KernelIdeal.Points
import proofs.«425107_j7653631722083_3_alg».proof.Proof.Gen.KernelIdeal.Frame
import proofs.«425107_j7653631722083_3_alg».proof.Proof.Gen.KernelIdeal.Value
import proofs.«425107_j7653631722083_3_alg».proof.Proof.Gen.ReferenceIdeal
import proofs.«425107_j7653631722083_3_alg».proof.Proof.Gen.ReferenceIdeal.Run
import proofs.«425107_j7653631722083_3_alg».proof.Proof.Gen.ReferenceIdeal.Read
import proofs.«425107_j7653631722083_3_alg».proof.Proof.Gen.Pre_finite_inputs
import proofs.«425107_j7653631722083_3_alg».proof.Proof.Spec
import proofs.«425107_j7653631722083_3_alg».proof.Proof.KernelValue
import proofs.«425107_j7653631722083_3_alg».proof.Proof.RefValue
import Idealize.ShloMosaic.Adequacy
import Idealize.ShloMosaic.Init

noncomputable section

namespace Cert.Proof

open Idealize.ShloMosaic Idealize.SL.Sem

/-- The kernel, word by word, runs to the end without a fault and leaves its three arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And so does the reference: its run ends with the arguments unchanged (the statement about its
    result is dropped here). -/
theorem frame_reference : Cert.frame_ReferenceIdeal := fun m ρ _ =>
  (θ_run Cert.ReferenceIdeal.defs _ _).mono (fun _ h c => (h c).2)
    (Cert.ReferenceIdeal.Value.run (F := Ideal) m ρ)

/-- No operation of the kernel was rewritten to obtain its reading over the extended reals. -/
theorem preserves : Cert.preserves_Kernel_KernelIdeal := trivial

/-- From arguments that agree, the kernel's result array and the reference's are both the diagonal
    linear map of those arguments, hence equal entry by entry. -/
theorem algebraic : Cert.algebraic_KernelIdeal_ReferenceIdeal := by
  intro m ρ m' ρ' _ hagree
  refine ⟨_, Cert.KernelIdeal.DiagValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.DiagValue.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
